-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S4x2048x4096 .f32) (main_arg1 : FVec F S65536x8 .f32) (main_arg2 : IVec S11008x512 32) (main_arg3 : IVec S11008x512 32) (main_arg4 : IVec S4096x1376 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x8 .f32 := Host.absf main_arg1
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  main_v8
-- ==== Kernel.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩
abbrev S11008x512x1 : Shape := ⟨3, ![11008, 512, 1]⟩
abbrev S11008x512x8 : Shape := ⟨3, ![11008, 512, 8]⟩
abbrev S11008x4096 : Shape := ⟨2, ![11008, 4096]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S8192x4096 : Shape := ⟨2, ![8192, 4096]⟩
abbrev S512x4096 : Shape := ⟨2, ![512, 4096]⟩
abbrev S128x4096 : Shape := ⟨2, ![128, 4096]⟩
abbrev S4096x128 : Shape := ⟨2, ![4096, 128]⟩
abbrev S512x128 : Shape := ⟨2, ![512, 128]⟩

abbrev nBuf : Space → Nat
  | .hbm => 40
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S11008x512, .i32⟩
  | .hbm, ⟨3, _⟩ => ⟨S11008x512, .i32⟩
  | .hbm, ⟨4, _⟩ => ⟨S4096x1376, .i32⟩
  | .hbm, ⟨5, _⟩ => ⟨S65536x8, .bf16⟩
  | .hbm, ⟨6, _⟩ => ⟨S_, .i32⟩
  | .hbm, ⟨7, _⟩ => ⟨S11008x512, .i32⟩
  | .hbm, ⟨8, _⟩ => ⟨S11008x512, .i1⟩
  | .hbm, ⟨9, _⟩ => ⟨S_, .i32⟩
  | .hbm, ⟨10, _⟩ => ⟨S11008x512, .i32⟩
  | .hbm, ⟨11, _⟩ => ⟨S11008x512, .i32⟩
  | .hbm, ⟨12, _⟩ => ⟨S11008x512, .i32⟩
  | .hbm, ⟨13, _⟩ => ⟨S11008x512x1, .i32⟩
  | .hbm, ⟨14, _⟩ => ⟨S11008x512x8, .bf16⟩
  | .hbm, ⟨15, _⟩ => ⟨S11008x4096, .bf16⟩
  | .hbm, ⟨16, _⟩ => ⟨S_, .i32⟩
  | .hbm, ⟨17, _⟩ => ⟨S11008x512, .i32⟩
  | .hbm, ⟨18, _⟩ => ⟨S11008x512, .i1⟩
  | .hbm, ⟨19, _⟩ => ⟨S_, .i32⟩
  | .hbm, ⟨20, _⟩ => ⟨S11008x512, .i32⟩
  | .hbm, ⟨21, _⟩ => ⟨S11008x512, .i32⟩
  | .hbm, ⟨22, _⟩ => ⟨S11008x512, .i32⟩
  | .hbm, ⟨23, _⟩ => ⟨S11008x512x1, .i32⟩
  | .hbm, ⟨24, _⟩ => ⟨S11008x512x8, .bf16⟩
  | .hbm, ⟨25, _⟩ => ⟨S11008x4096, .bf16⟩
  | .hbm, ⟨26, _⟩ => ⟨S_, .i32⟩
  | .hbm, ⟨27, _⟩ => ⟨S4096x1376, .i32⟩
  | .hbm, ⟨28, _⟩ => ⟨S4096x1376, .i1⟩
  | .hbm, ⟨29, _⟩ => ⟨S_, .i32⟩
  | .hbm, ⟨30, _⟩ => ⟨S4096x1376, .i32⟩
  | .hbm, ⟨31, _⟩ => ⟨S4096x1376, .i32⟩
  | .hbm, ⟨32, _⟩ => ⟨S4096x1376, .i32⟩
  | .hbm, ⟨33, _⟩ => ⟨S4096x1376x1, .i32⟩
  | .hbm, ⟨34, _⟩ => ⟨S4096x1376x8, .bf16⟩
  | .hbm, ⟨35, _⟩ => ⟨S4096x11008, .bf16⟩
  | .hbm, ⟨36, _⟩ => ⟨S8192x4096, .f32⟩
  | .hbm, ⟨37, _⟩ => ⟨S8192x4096, .bf16⟩
  | .hbm, ⟨38, _⟩ => ⟨S8192x4096, .f32⟩
  | .hbm, ⟨39, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S4096x128, .bf16⟩
  | .local _ .vmem, ⟨7, _⟩ => ⟨S4096x128, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  shapeCasts_S11008x512x8_S11008x4096 : S11008x512x8.ShapeCasts S11008x4096
  bcast_S_S4096x1376 : S_.BroadcastsInDim S4096x1376 (![] : Fin 0 → Fin S4096x1376.rank)
  bcast_S4096x1376_S4096x1376x1_0_1 : S4096x1376.BroadcastsInDim S4096x1376x1 (![0, 1] : Fin 2 → Fin S4096x1376x1.rank)
  shapeCasts_S4096x1376x8_S4096x11008 : S4096x1376x8.ShapeCasts S4096x11008
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  transposes_S4096x128_p1_0_S128x4096 : S4096x128.Transposes [1, 0] S128x4096
  shapeCasts_S8192x4096_S4x2048x4096 : S8192x4096.ShapeCasts S4x2048x4096
  gather_S65536x8_S11008x512x1_S11008x512x8_2_0_n_n_0_2_18_wf : GatherDims.WF S65536x8 S11008x512x1 S11008x512x8 [2] [0] [] [0] [] 2 ![1, 8]
  gather_S65536x8_S4096x1376x1_S4096x1376x8_2_0_n_n_0_2_18_wf : GatherDims.WF S65536x8 S4096x1376x1 S4096x1376x8 [2] [0] [] [0] [] 2 ![1, 8]
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .bf16 = 32 ∨ (Rect.block (s := S11008x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .bf16 = 32 ∨ (Rect.block (s := S11008x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .bf16 = 32 ∨ (Rect.block (s := S4096x11008) S4096x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def gather_S65536x8_S4096x1376x1_S4096x1376x8_2_0_n_n_0_2_18 : GatherDims S65536x8 S4096x1376x1 S4096x1376x8 where
  offsetDims := [2]
  collapsedSliceDims := [0]
  operandBatchingDims := []
  startIndicesBatchingDims := []
  startIndexMap := [0]
  indexVectorDim := 2
  sliceSizes := ![1, 8]
  wf := gather_S65536x8_S4096x1376x1_S4096x1376x8_2_0_n_n_0_2_18_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v26) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65536x8 : Shape := ⟨2, ![65536, 8]⟩
abbrev S11008x512 : Shape := ⟨2, ![11008, 512]⟩
abbrev S4096x1376 : Shape := ⟨2, ![4096, 1376]⟩
abbrev S_ : Shape := ⟨0, ![]⟩
abbrev S11008x512x1 : Shape := ⟨3, ![11008, 512, 1]⟩
abbrev S11008x512x8 : Shape := ⟨3, ![11008, 512, 8]⟩
abbrev S11008x4096 : Shape := ⟨2, ![11008, 4096]⟩
abbrev S4096x1376x1 : Shape := ⟨3, ![4096, 1376, 1]⟩
abbrev S4096x1376x8 : Shape := ⟨3, ![4096, 1376, 8]⟩
abbrev S4096x11008 : Shape := ⟨2, ![4096, 11008]⟩
abbrev S4x2048x11008 : Shape := ⟨3, ![4, 2048, 11008]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S65536x8, .f32⟩
  | .hbm, ⟨2, _⟩ => ⟨S11008x512, .i32⟩
  | .hbm, ⟨3, _⟩ => ⟨S11008x512, .i32⟩
  | .hbm, ⟨4, _⟩ => ⟨S4096x1376, .i32⟩
  | .hbm, ⟨5, _⟩ => ⟨S_, .i32⟩
  | .hbm, ⟨6, _⟩ => ⟨S11008x512, .i32⟩
  | .hbm, ⟨7, _⟩ => ⟨S11008x512, .i1⟩
  | .hbm, ⟨8, _⟩ => ⟨S_, .i32⟩
  | .hbm, ⟨9, _⟩ => ⟨S11008x512, .i32⟩
  | .hbm, ⟨10, _⟩ => ⟨S11008x512, .i32⟩
  | .hbm, ⟨11, _⟩ => ⟨S11008x512, .i32⟩
  | .hbm, ⟨12, _⟩ => ⟨S11008x512x1, .i32⟩
  | .hbm, ⟨13, _⟩ => ⟨S11008x512x8, .f32⟩
  | .hbm, ⟨14, _⟩ => ⟨S11008x4096, .f32⟩
  | .hbm, ⟨15, _⟩ => ⟨S_, .i32⟩
  | .hbm, ⟨16, _⟩ => ⟨S11008x512, .i32⟩
  | .hbm, ⟨17, _⟩ => ⟨S11008x512, .i1⟩
  | .hbm, ⟨18, _⟩ => ⟨S_, .i32⟩
  | .hbm, ⟨19, _⟩ => ⟨S11008x512, .i32⟩
  | .hbm, ⟨20, _⟩ => ⟨S11008x512, .i32⟩
  | .hbm, ⟨21, _⟩ => ⟨S11008x512, .i32⟩
  | .hbm, ⟨22, _⟩ => ⟨S11008x512x1, .i32⟩
  | .hbm, ⟨23, _⟩ => ⟨S11008x512x8, .f32⟩
  | .hbm, ⟨24, _⟩ => ⟨S11008x4096, .f32⟩
  | .hbm, ⟨25, _⟩ => ⟨S_, .i32⟩
  | .hbm, ⟨26, _⟩ => ⟨S4096x1376, .i32⟩
  | .hbm, ⟨27, _⟩ => ⟨S4096x1376, .i1⟩
  | .hbm, ⟨28, _⟩ => ⟨S_, .i32⟩
  | .hbm, ⟨29, _⟩ => ⟨S4096x1376, .i32⟩
  | .hbm, ⟨30, _⟩ => ⟨S4096x1376, .i32⟩
  | .hbm, ⟨31, _⟩ => ⟨S4096x1376, .i32⟩
  | .hbm, ⟨32, _⟩ => ⟨S4096x1376x1, .i32⟩
  | .hbm, ⟨33, _⟩ => ⟨S4096x1376x8, .f32⟩
  | .hbm, ⟨34, _⟩ => ⟨S4096x11008, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S4x2048x11008, .f32⟩
  | .hbm, ⟨39, _⟩ => ⟨S_, .f32⟩
  | .hbm, ⟨40, _⟩ => ⟨S4x2048x11008, .f32⟩
  | .hbm, ⟨41, _⟩ => ⟨S4x2048x11008, .f32⟩
  | .hbm, ⟨42, _⟩ => ⟨S_, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .f32⟩
  | .hbm, ⟨47, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  shapeCasts_S11008x512x8_S11008x4096 : S11008x512x8.ShapeCasts S11008x4096
  bcast_S_S4096x1376 : S_.BroadcastsInDim S4096x1376 (![] : Fin 0 → Fin S4096x1376.rank)
  bcast_S4096x1376_S4096x1376x1_0_1 : S4096x1376.BroadcastsInDim S4096x1376x1 (![0, 1] : Fin 2 → Fin S4096x1376x1.rank)
  shapeCasts_S4096x1376x8_S4096x11008 : S4096x1376x8.ShapeCasts S4096x11008
  bcast_S_S4x2048x11008 : S_.BroadcastsInDim S4x2048x11008 (![] : Fin 0 → Fin S4x2048x11008.rank)
  gather_S65536x8_S11008x512x1_S11008x512x8_2_0_n_n_0_2_18_wf : GatherDims.WF S65536x8 S11008x512x1 S11008x512x8 [2] [0] [] [0] [] 2 ![1, 8]
  gather_S65536x8_S4096x1376x1_S4096x1376x8_2_0_n_n_0_2_18_wf : GatherDims.WF S65536x8 S4096x1376x1 S4096x1376x8 [2] [0] [] [0] [] 2 ![1, 8]
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def gather_S65536x8_S4096x1376x1_S4096x1376x8_2_0_n_n_0_2_18 : GatherDims S65536x8 S4096x1376x1 S4096x1376x8 where
  offsetDims := [2]
  collapsedSliceDims := [0]
  operandBatchingDims := []
  startIndicesBatchingDims := []
  startIndexMap := [0]
  indexVectorDim := 2
  sliceSizes := ![1, 8]
  wf := gather_S65536x8_S4096x1376x1_S4096x1376x8_2_0_n_n_0_2_18_wf
def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Pieces.lean ====
/-
  What the kernel body leaves in its output block, in each of its two cases, as one value.

  At the first point of a row block (hidden tile 0) the body stores the zero block, reads it back and stores the
  accumulation step over it; at every other point it stores the accumulation step over what the point before left.
  Each case ends in one store that covers the whole block, so the block's contents are that store's value, and the
  loads that value is made of read the whole staging buffers.
-/
import proofs.«112168_j44899588112791_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point of a row block: the accumulation step over what the block held. -/
theorem out_B (c : Dev nD) (i : grid0.Coords) (a2 : Memref sig .tc .vmem S512x4096 .bf16) (h2 : a2.IsWhole)
    (a3 : Memref sig .tc .vmem S128x4096 .bf16) (h3 : a3.IsWhole) (a4 : Memref sig .tc .vmem S128x4096 .bf16) (h4 : a4.IsWhole)
    (a5 : Memref sig .tc .vmem S4096x128 .bf16) (h5 : a5.IsWhole) (a6 : Memref sig .tc .vmem S512x4096 .f32) (h6 : a6.IsWhole)
    (hc : ¬cond0_0 i) (x0 : Vec F S512x4096 .bf16) (x1 : Vec F S128x4096 .bf16) (x2 : Vec F S128x4096 .bf16)
    (x3 : Vec F S4096x128 .bf16) (xo : Vec F S512x4096 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S512x4096) hz, View.ld_unit_zero (S := S128x4096) hz, View.ld_unit_zero (S := S4096x128) hz]

/-- The first point of a row block: the accumulation step over the zero block. -/
theorem out_A (c : Dev nD) (i : grid0.Coords) (a2 : Memref sig .tc .vmem S512x4096 .bf16) (h2 : a2.IsWhole)
    (a3 : Memref sig .tc .vmem S128x4096 .bf16) (h3 : a3.IsWhole) (a4 : Memref sig .tc .vmem S128x4096 .bf16) (h4 : a4.IsWhole)
    (a5 : Memref sig .tc .vmem S4096x128 .bf16) (h5 : a5.IsWhole) (a6 : Memref sig .tc .vmem S512x4096 .f32) (h6 : a6.IsWhole)
    (hc : cond0_0 i) (x0 : Vec F S512x4096 .bf16) (x1 : Vec F S128x4096 .bf16) (x2 : Vec F S128x4096 .bf16)
    (x3 : Vec F S4096x128 .bf16) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S128x4096) hz, View.ld_unit_zero (S := S4096x128) hz]

end Cert.KernelIdeal.Pieces

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.MlpSpec.lean ====
/-
  The gated feed-forward layer as one function of an input row and three weight matrices, over the extended reals.

  For an input row `xr` (4096 entries), gate and up weights `Wg`, `Wu` (11008 × 4096) and down weights `Wd`
  (4096 × 11008), the hidden unit `i` is `g · σ(g) · u` with `g = ∑ₖ xr k · Wg[i, k]`, `u = ∑ₖ xr k · Wu[i, k]` and
  `σ` the logistic function, and output column `q` is `∑ᵢ hidden i · Wd[q, i]`.

  The 11008 hidden units split into 86 tiles of 128. The sum over all hidden units is the sum over the tiles of the
  sums inside each tile, in any order: addition of extended reals is commutative and associative, and no other law is
  used, so nothing here needs the summands to be finite. `acc n` is the sum of the first `n` tiles.
-/
import Idealize.ShloMosaic.PureOps.Ideal.Laws
import Idealize.ShloMosaic.Lib.ValueIdx

noncomputable section

namespace Cert.Mlp

open Idealize.ShloMosaic Idealize.ShloMosaic.ValueIdx

/-- The shape of the gate and up weight matrices: one row per hidden unit. -/
abbrev SW : Shape := ⟨2, ![11008, 4096]⟩
/-- The shape of the down weight matrix: one row per output column. -/
abbrev SD : Shape := ⟨2, ![4096, 11008]⟩

/-- The gated activation: `g · σ(g) · u`. -/
def swiglu (g u : EReal) : EReal := g * Ideal.logistic g * u

/-- The projection of the input row onto row `i` of a weight matrix. -/
def proj (xr : Fin 4096 → EReal) (W : SW.Idx → EReal) (i : Fin 11008) : EReal :=
  ∑ k : Fin 4096, xr k * W (ix2 i k)

/-- Hidden unit `i`. -/
def hid (xr : Fin 4096 → EReal) (Wg Wu : SW.Idx → EReal) (i : Fin 11008) : EReal :=
  swiglu (proj xr Wg i) (proj xr Wu i)

/-- Hidden unit `i`'s contribution to output column `q`. -/
def term (xr : Fin 4096 → EReal) (Wg Wu : SW.Idx → EReal) (Wd : SD.Idx → EReal) (q : Fin 4096) (i : Fin 11008) : EReal :=
  hid xr Wg Wu i * Wd (ix2 q i)

/-- Output column `q` of the layer applied to the row. -/
def mlpRow (xr : Fin 4096 → EReal) (Wg Wu : SW.Idx → EReal) (Wd : SD.Idx → EReal) (q : Fin 4096) : EReal :=
  ∑ i : Fin 11008, term xr Wg Wu Wd q i

/-- Hidden unit `l` of tile `j`. -/
def col (j : Fin 86) (l : Fin 128) : Fin 11008 := ⟨j.val * 128 + l.val, by omega⟩

/-- Tile `j`'s contribution to output column `q`. -/
def tileSum (xr : Fin 4096 → EReal) (Wg Wu : SW.Idx → EReal) (Wd : SD.Idx → EReal) (q : Fin 4096) (j : Fin 86) : EReal :=
  ∑ l : Fin 128, term xr Wg Wu Wd q (col j l)

/-- The same with the tile numbered by a natural number (zero past the last tile). -/
def tileN (xr : Fin 4096 → EReal) (Wg Wu : SW.Idx → EReal) (Wd : SD.Idx → EReal) (q : Fin 4096) (n : ℕ) : EReal :=
  if h : n < 86 then tileSum xr Wg Wu Wd q ⟨n, h⟩ else 0

/-- The first `n` tiles' contribution to output column `q`. -/
def acc (xr : Fin 4096 → EReal) (Wg Wu : SW.Idx → EReal) (Wd : SD.Idx → EReal) (q : Fin 4096) (n : ℕ) : EReal :=
  ∑ j ∈ Finset.range n, tileN xr Wg Wu Wd q j

theorem acc_zero (xr : Fin 4096 → EReal) (Wg Wu : SW.Idx → EReal) (Wd : SD.Idx → EReal) (q : Fin 4096) :
    acc xr Wg Wu Wd q 0 = 0 := Finset.sum_range_zero _

theorem acc_succ (xr : Fin 4096 → EReal) (Wg Wu : SW.Idx → EReal) (Wd : SD.Idx → EReal) (q : Fin 4096) (n : ℕ) (h : n < 86) :
    acc xr Wg Wu Wd q (n + 1) = acc xr Wg Wu Wd q n + tileSum xr Wg Wu Wd q ⟨n, h⟩ := by
  unfold acc
  rw [Finset.sum_range_succ]
  congr 1
  exact dif_pos h

/-- A hidden unit is its tile and its place in the tile. -/
def colEquiv : Fin 86 × Fin 128 ≃ Fin 11008 where
  toFun x := col x.1 x.2
  invFun i := (⟨i.val / 128, by omega⟩, ⟨i.val % 128, by omega⟩)
  left_inv x := by
    obtain ⟨j, l⟩ := x
    apply Prod.ext <;> apply Fin.ext <;> simp only [col] <;> omega
  right_inv i := by
    apply Fin.ext
    simp only [col]
    omega

/-- Summing tile by tile is summing over all hidden units. -/
theorem sum_tiles {M : Type*} [AddCommMonoid M] (f : Fin 11008 → M) :
    ∑ j : Fin 86, ∑ l : Fin 128, f (col j l) = ∑ i : Fin 11008, f i := by
  rw [← Fintype.sum_prod_type' (fun j l => f (col j l))]
  exact Fintype.sum_equiv colEquiv _ _ fun _ => rfl

/-- All 86 tiles together are the whole output column. -/
theorem acc_full (xr : Fin 4096 → EReal) (Wg Wu : SW.Idx → EReal) (Wd : SD.Idx → EReal) (q : Fin 4096) :
    acc xr Wg Wu Wd q 86 = mlpRow xr Wg Wu Wd q := by
  unfold acc mlpRow
  rw [Finset.sum_range]
  have e : ∀ j : Fin 86, tileN xr Wg Wu Wd q j.val = tileSum xr Wg Wu Wd q j := fun j => dif_pos j.isLt
  simp only [e]
  unfold tileSum
  exact sum_tiles _

end Cert.Mlp

end
-- ==== Proof.BodyValue.lean ====
/-
  What the kernel body adds to its output block at one grid point, read at one entry.

  At a grid point the body holds a block of 512 input rows (512 × 4096), the gate and up weights of one tile of 128
  hidden units (128 × 4096 each) and the down weights of that tile (4096 × 128). It forms the two projections
  `g[p, j] = ∑ₖ x[p, k] · wg[j, k]` and `u[p, j] = ∑ₖ x[p, k] · wu[j, k]` (each weight block enters the matrix product
  transposed), the gated activation `g · σ(g) · u`, and adds `∑ⱼ act[p, j] · wd[q, j]` to entry (p, q) of the output
  block. So when the input block's row `p` is the row `xr` and the weight blocks are tile `jt` of the weight
  matrices, entry (p, q) grows by tile `jt`'s contribution to output column `q` of the layer applied to `xr`.
  Changes of float format are the identity over the extended reals.
-/
import proofs.«112168_j44899588112791_1_alg».proof.Proof.Gen.KernelIdeal.Skeleton
import proofs.«112168_j44899588112791_1_alg».proof.Proof.LibMatmulAt
import proofs.«112168_j44899588112791_1_alg».proof.Proof.MlpSpec
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Idealize.ShloMosaic.MatmulAt Cert.Mlp

/-! ## Where the two matrix products read their operands -/

theorem lhs_proj_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_proj_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_proj_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_proj_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

theorem lhs_down_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem lhs_down_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs_down_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs_down_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-- A projection of the input block onto a transposed weight block, at entry (p, j). -/
theorem proj_at (x : Vec Ideal S512x4096 .bf16) (w : Vec Ideal S128x4096 .bf16) (p : Fin 512) (j : Fin 128) :
    matmul (F := Ideal) dot_S512x4096_S4096x128_S512x128_1_0_0_1_n_n none
        (shapeCast S512x4096 x shapeCasts_S512x4096_S512x4096 : FVec Ideal S512x4096 .bf16)
        (transpose S4096x128 [1, 0] (shapeCast S128x4096 w shapeCasts_S128x4096_S128x4096 : FVec Ideal S128x4096 .bf16)
          transposes_S128x4096_p1_0_S4096x128 : FVec Ideal S4096x128 .bf16)
        (constant (F := Ideal) S512x128 .f32 0x00000000#32) (ix2 p j)
      = (∑ k : Fin 4096, x (ix2 p k) * w (ix2 j k) : EReal) := by
  refine (matmul_zero_at dot_S512x4096_S4096x128_S512x128_1_0_0_1_n_n rfl rfl lhs_proj_0 lhs_proj_1 rhs_proj_0 rhs_proj_1 none _ _ p j).trans ?_
  refine Finset.sum_congr rfl fun k _ => ?_
  rw [shapeCast_self, transpose_ix2_apply, shapeCast_self]

/-- The zero block the first point of a row block stores. -/
theorem pay1_at (i : S512x4096.Idx) : k0_pay1 (F := Ideal) i = 0 := Ideal.ofBits_zero_f32

/-- Entry (p, q) of the block the body stores: what the output block held there plus one tile's contribution. -/
theorem pay2_at (x0 : Vec Ideal S512x4096 .bf16) (x1 x2 : Vec Ideal S128x4096 .bf16) (x3 : Vec Ideal S4096x128 .bf16)
    (old : Vec Ideal S512x4096 .f32) (p : Fin 512) (q : Fin 4096)
    (xr : Fin 4096 → EReal) (Wg Wu : SW.Idx → EReal) (Wd : SD.Idx → EReal) (jt : Fin 86)
    (h0 : ∀ k : Fin 4096, x0 (ix2 p k) = xr k)
    (h1 : ∀ (j : Fin 128) (k : Fin 4096), x1 (ix2 j k) = Wg (ix2 (col jt j) k))
    (h2 : ∀ (j : Fin 128) (k : Fin 4096), x2 (ix2 j k) = Wu (ix2 (col jt j) k))
    (h3 : ∀ j : Fin 128, x3 (ix2 q j) = Wd (ix2 q (col jt j))) :
    k0_pay2 (F := Ideal) x0 x1 x2 x3 old (ix2 p q) = old (ix2 p q) + tileSum xr Wg Wu Wd q jt := by
  have hproj : ∀ (w : Vec Ideal S128x4096 .bf16) (W : SW.Idx → EReal),
      (∀ (j : Fin 128) (k : Fin 4096), w (ix2 j k) = W (ix2 (col jt j) k)) → ∀ j : Fin 128,
      matmul (F := Ideal) dot_S512x4096_S4096x128_S512x128_1_0_0_1_n_n none
          (shapeCast S512x4096 x0 shapeCasts_S512x4096_S512x4096 : FVec Ideal S512x4096 .bf16)
          (transpose S4096x128 [1, 0] (shapeCast S128x4096 w shapeCasts_S128x4096_S128x4096 : FVec Ideal S128x4096 .bf16)
            transposes_S128x4096_p1_0_S4096x128 : FVec Ideal S4096x128 .bf16)
          (constant (F := Ideal) S512x128 .f32 0x00000000#32) (ix2 p j)
        = proj xr W (col jt j) :=
    fun w W hw j => (proj_at x0 w p j).trans (Finset.sum_congr rfl fun k _ => by rw [h0, hw])
  have hdown : ∀ j : Fin 128,
      (transpose S128x4096 [1, 0] (shapeCast S4096x128 x3 shapeCasts_S4096x128_S4096x128 : FVec Ideal S4096x128 .bf16)
        transposes_S4096x128_p1_0_S128x4096 : FVec Ideal S128x4096 .bf16) (ix2 j q) = Wd (ix2 q (col jt j)) := fun j => by
    rw [transpose_ix2_apply, shapeCast_self]
    exact h3 j
  unfold k0_pay2
  dsimp only
  rw [addf_apply]
  refine congrArg₂ (· + ·) (congrFun (shapeCast_self old shapeCasts_S512x4096_S512x4096) (ix2 p q)) ?_
  refine (matmul_zero_at dot_S512x128_S128x4096_S512x4096_1_0_0_1_n_n rfl rfl lhs_down_0 lhs_down_1 rhs_down_0 rhs_down_1 none _ _ p q).trans ?_
  unfold tileSum term hid
  refine Finset.sum_congr rfl fun j _ => ?_
  refine congrArg₂ (· * ·) ?_ (hdown j)
  exact congrArg₂ swiglu (hproj x1 Wg h1 j) (hproj x2 Wu h2 j)

end Cert.KernelIdeal.BodyValue

end
-- ==== Proof.Accumulate.lean ====
/-
  The output block's contents after each grid point, entry by entry.

  The grid has 16 row blocks of 512 rows, and for each of them 86 points, one per tile of 128 hidden units, in order.
  Point `t` is row block `t / 86`, tile `t % 86`: its input block is rows `512 · (t / 86) …` of the input, its weight
  blocks are rows `128 · (t % 86) …` of the gate and up weights and columns `128 · (t % 86) …` of the down weights.
  The first point of a row block starts from zero and every later point adds its tile to what the point before left,
  so after point `t` entry (p, q) of the output block holds the first `t % 86 + 1` tiles' contribution to output
  column `q` of the layer applied to row `512 · (t / 86) + p` of the input: by induction on the point.
-/
import proofs.«112168_j44899588112791_1_alg».proof.Proof.Gen.KernelIdeal.Frame
import proofs.«112168_j44899588112791_1_alg».proof.Proof.Pieces
import proofs.«112168_j44899588112791_1_alg».proof.Proof.BodyValue
import proofs.«112168_j44899588112791_1_alg».proof.Proof.MlpSpec
import Idealize.ShloMosaic.Lib.Pipeline.Value

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx Cert.Mlp Cert.KernelIdeal.Pieces Cert.KernelIdeal.BodyValue

variable (m : (ℓ : Loc nD τ sig) → Buf (Elt Ideal) ℓ)

/-! ## The arrays the region finds, and the blocks a point holds, at their literal types -/

/-- The input rows (8192 × 4096) as the region finds them. -/
abbrev xarr (c : Dev nD) : Vec Ideal S8192x4096 .bf16 := V m c main_v26
/-- The gate weights (11008 × 4096). -/
abbrev wgarr (c : Dev nD) : Vec Ideal S11008x4096 .bf16 := V m c main_v8
/-- The up weights (11008 × 4096). -/
abbrev wuarr (c : Dev nD) : Vec Ideal S11008x4096 .bf16 := V m c main_v16
/-- The down weights (4096 × 11008). -/
abbrev wdarr (c : Dev nD) : Vec Ideal S4096x11008 .bf16 := V m c main_v24

abbrev xblk (c : Dev nD) (t : Fin cfg0.N) : Vec Ideal S512x4096 .bf16 := iblk m c 0 t
abbrev wgblk (c : Dev nD) (t : Fin cfg0.N) : Vec Ideal S128x4096 .bf16 := iblk m c 1 t
abbrev wublk (c : Dev nD) (t : Fin cfg0.N) : Vec Ideal S128x4096 .bf16 := iblk m c 2 t
abbrev wdblk (c : Dev nD) (t : Fin cfg0.N) : Vec Ideal S4096x128 .bf16 := iblk m c 3 t

/-- Row `p` of row block `b`. -/
def rowOf (b : ℕ) (p : Fin 512) : Fin 8192 := ⟨b % 16 * 512 + p.val, by omega⟩

/-- The tile a point works on. -/
def tileOf (n : ℕ) : Fin 86 := ⟨n % 86, Nat.mod_lt _ (by norm_num)⟩

/-- Row `p` of row block `b` of the input. -/
def xrow (c : Dev nD) (b : ℕ) (p : Fin 512) : Fin 4096 → EReal := fun k => xarr m c (ix2 (rowOf b p) k)

/-- Which block of its array each window holds at point `t`: decided over the grid. -/
theorem idx_facts : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86
    ∧ win0_4.index t (0 : Fin 2) = t.val / 86 ∧ win0_4.index t (1 : Fin 2) = 0 :=
  (by decide +kernel : ∀ t : Fin grid0.N, _)

theorem lt_N (t : Fin cfg0.N) : t.val < 1376 := lt_of_lt_of_eq t.isLt (show cfg0.N = 1376 from N_0)

/-- The input block at point `t` is rows `512 · (t / 86) …` of the input. -/
theorem xblk_at (c : Dev nD) (t : Fin cfg0.N) (p : Fin 512) (k : Fin 4096) :
    xblk m c t (ix2 p k) = xrow m c (t.val / 86) p k := by
  obtain ⟨e0, e1, -⟩ := idx_facts t
  have hN := lt_N t
  unfold xrow xblk xarr iblk
  rw [View.read_apply]
  show V m c main_v26 _ = V m c main_v26 _
  refine congrArg (V m c main_v26) (funext fun a => Fin.ext ?_)
  match a with
  | ⟨0, _⟩ => show win0_0.index t (0 : Fin 2) * 512 + 1 * p.val = (t.val / 86) % 16 * 512 + p.val; rw [e0]; omega
  | ⟨1, _⟩ => show win0_0.index t (1 : Fin 2) * 4096 + 1 * k.val = k.val; rw [e1]; omega

/-- The gate weight block at point `t` is rows `128 · (t % 86) …` of the gate weights. -/
theorem wgblk_at (c : Dev nD) (t : Fin cfg0.N) (j : Fin 128) (k : Fin 4096) :
    wgblk m c t (ix2 j k) = wgarr m c (ix2 (col (tileOf t.val) j) k) := by
  obtain ⟨-, -, e0, e1, -⟩ := idx_facts t
  unfold wgblk wgarr iblk
  rw [View.read_apply]
  show V m c main_v8 _ = V m c main_v8 _
  refine congrArg (V m c main_v8) (funext fun a => Fin.ext ?_)
  match a with
  | ⟨0, _⟩ => show win0_1.index t (0 : Fin 2) * 128 + 1 * j.val = t.val % 86 * 128 + j.val; rw [e0]; omega
  | ⟨1, _⟩ => show win0_1.index t (1 : Fin 2) * 4096 + 1 * k.val = k.val; rw [e1]; omega

/-- The up weight block at point `t` is rows `128 · (t % 86) …` of the up weights. -/
theorem wublk_at (c : Dev nD) (t : Fin cfg0.N) (j : Fin 128) (k : Fin 4096) :
    wublk m c t (ix2 j k) = wuarr m c (ix2 (col (tileOf t.val) j) k) := by
  obtain ⟨-, -, -, -, e0, e1, -⟩ := idx_facts t
  unfold wublk wuarr iblk
  rw [View.read_apply]
  show V m c main_v16 _ = V m c main_v16 _
  refine congrArg (V m c main_v16) (funext fun a => Fin.ext ?_)
  match a with
  | ⟨0, _⟩ => show win0_2.index t (0 : Fin 2) * 128 + 1 * j.val = t.val % 86 * 128 + j.val; rw [e0]; omega
  | ⟨1, _⟩ => show win0_2.index t (1 : Fin 2) * 4096 + 1 * k.val = k.val; rw [e1]; omega

/-- The down weight block at point `t` is columns `128 · (t % 86) …` of the down weights. -/
theorem wdblk_at (c : Dev nD) (t : Fin cfg0.N) (q : Fin 4096) (j : Fin 128) :
    wdblk m c t (ix2 q j) = wdarr m c (ix2 q (col (tileOf t.val) j)) := by
  obtain ⟨-, -, -, -, -, -, e0, e1, -⟩ := idx_facts t
  unfold wdblk wdarr iblk
  rw [View.read_apply]
  show V m c main_v24 _ = V m c main_v24 _
  refine congrArg (V m c main_v24) (funext fun a => Fin.ext ?_)
  match a with
  | ⟨0, _⟩ => show win0_3.index t (0 : Fin 2) * 4096 + 1 * q.val = q.val; rw [e0]; omega
  | ⟨1, _⟩ => show win0_3.index t (1 : Fin 2) * 128 + 1 * j.val = t.val % 86 * 128 + j.val; rw [e1]; omega

/-! ## One point -/

/-- The first point of a row block leaves its tile's contribution. -/
theorem step_first (c : Dev nD) (t : Fin cfg0.N) (hA : t.val % 86 = 0) (p : Fin 512) (q : Fin 4096) :
    outsAt0 m c t.val t.isLt (ix2 p q)
      = tileSum (xrow m c (t.val / 86) p) (wgarr m c) (wuarr m c) (wdarr m c) q (tileOf t.val) := by
  rw [outsAt0_A m c t hA]
  refine (congrFun (out_A (F := Ideal) c (grid0.coords t) (ms0_0 t) (hs0_0 t) (ms0_1 t) (hs0_1 t) (ms0_2 t) (hs0_2 t)
    (ms0_3 t) (hs0_3 t) (ms0_4 t) (hs0_4 t) ((hcond0_0 t).mpr hA) (xblk m c t) (wgblk m c t) (wublk m c t) (wdblk m c t)) (ix2 p q)).trans ?_
  refine (pay2_at (xblk m c t) (wgblk m c t) (wublk m c t) (wdblk m c t) (k0_pay1 (F := Ideal)) p q
    (xrow m c (t.val / 86) p) (wgarr m c) (wuarr m c) (wdarr m c) (tileOf t.val)
    (xblk_at m c t p) (wgblk_at m c t) (wublk_at m c t) (wdblk_at m c t q)).trans ?_
  rw [pay1_at, zero_add]

/-- Every later point adds its tile's contribution to what the point before left. -/
theorem step_next (c : Dev nD) (t : Fin cfg0.N) (hB : ¬t.val % 86 = 0) (p : Fin 512) (q : Fin 4096) :
    outsAt0 m c t.val t.isLt (ix2 p q)
      = outsAt0 m c (t.val - 1) (Nat.lt_of_le_of_lt (Nat.sub_le _ _) t.isLt) (ix2 p q)
        + tileSum (xrow m c (t.val / 86) p) (wgarr m c) (wuarr m c) (wdarr m c) q (tileOf t.val) := by
  rw [outsAt0_B m c t hB]
  refine (congrFun (out_B (F := Ideal) c (grid0.coords t) (ms0_0 t) (hs0_0 t) (ms0_1 t) (hs0_1 t) (ms0_2 t) (hs0_2 t)
    (ms0_3 t) (hs0_3 t) (ms0_4 t) (hs0_4 t) (fun h => hB ((hcond0_0 t).mp h)) (xblk m c t) (wgblk m c t) (wublk m c t) (wdblk m c t)
    (outsAt0 m c (t.val - 1) (Nat.lt_of_le_of_lt (Nat.sub_le _ _) t.isLt))) (ix2 p q)).trans ?_
  exact pay2_at (xblk m c t) (wgblk m c t) (wublk m c t) (wdblk m c t)
    (outsAt0 m c (t.val - 1) (Nat.lt_of_le_of_lt (Nat.sub_le _ _) t.isLt)) p q
    (xrow m c (t.val / 86) p) (wgarr m c) (wuarr m c) (wdarr m c) (tileOf t.val)
    (xblk_at m c t p) (wgblk_at m c t) (wublk_at m c t) (wdblk_at m c t q)

/-! ## All points -/

/-- After point `n` entry (p, q) of the output block holds the first `n % 86 + 1` tiles' contribution to output
    column `q` for row `p` of row block `n / 86`. -/
theorem outsAt_at (c : Dev nD) : ∀ (n : ℕ) (h : n < cfg0.N) (p : Fin 512) (q : Fin 4096),
    outsAt0 m c n h (ix2 p q)
      = acc (xrow m c (n / 86) p) (wgarr m c) (wuarr m c) (wdarr m c) q (n % 86 + 1)
  | 0, h, p, q => by
    rw [step_first m c ⟨0, h⟩ rfl p q, acc_succ _ _ _ _ _ 0 (by norm_num), acc_zero, zero_add]
    rfl
  | n + 1, h, p, q => by
    have hN : n + 1 < 1376 := lt_N ⟨n + 1, h⟩
    by_cases h0 : (n + 1) % 86 = 0
    · rw [step_first m c ⟨n + 1, h⟩ h0 p q, h0, acc_succ _ _ _ _ _ 0 (by norm_num), acc_zero, zero_add]
      exact congrArg _ (Fin.ext h0)
    · rw [step_next m c ⟨n + 1, h⟩ h0 p q]
      show outsAt0 m c n _ (ix2 p q) + _ = _
      rw [outsAt_at c n (Nat.lt_of_succ_lt h) p q, acc_succ _ _ _ _ _ ((n + 1) % 86) (Nat.mod_lt _ (by norm_num))]
      have e1 : n % 86 + 1 = (n + 1) % 86 := by omega
      have e2 : n / 86 = (n + 1) / 86 := by omega
      rw [e1, e2]
      rfl

end Cert.KernelIdeal.Accum

end
-- ==== Proof.Weights.lean ====
/-
  The arrays the kernel region finds, as functions of the program's arguments.

  Before the region the program looks the three index arrays up in the codebook (each index first wrapped into
  range when negative), lays each gathered [rows, groups, 8] array out as a [rows, 8 · groups] matrix, and flattens
  the input's two leading axes. The reference program makes its weight matrices by the same lookups, and a change of
  float format is the identity over the extended reals, so the region finds the reference's three weight matrices;
  and row `r` of the flattened input is row `(r / 2048, r % 2048)` of the input.
-/
import proofs.«112168_j44899588112791_1_alg».proof.Proof.Gen.KernelIdeal.Frame.Runs
import proofs.«112168_j44899588112791_1_alg».proof.Proof.Gen.ReferenceIdeal.Read
import Idealize.ShloMosaic.Lib.Pipeline.Value
import Idealize.ShloMosaic.Lib.StableHlo.Run
import Idealize.ShloMosaic.Lib.ValueIdx

set_option maxRecDepth 16384

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The gate weights the region finds are the reference's. -/
theorem gate_eq (c : Dev nD) :
    V m c main_v8 = Cert.ReferenceIdeal.Read.val_main_v7 (F := Ideal) (m ((c : Thread nD τ).loc main_arg1)) (m ((c : Thread nD τ).loc main_arg2)) := by
  show StableHlo.after hostOps0 (fun b => m (c, b)) (Proc.devRef .tc main_v8) = _
  after_results
  rfl

/-- The up weights the region finds are the reference's. -/
theorem up_eq (c : Dev nD) :
    V m c main_v16 = Cert.ReferenceIdeal.Read.val_main_v15 (F := Ideal) (m ((c : Thread nD τ).loc main_arg1)) (m ((c : Thread nD τ).loc main_arg3)) := by
  show StableHlo.after hostOps0 (fun b => m (c, b)) (Proc.devRef .tc main_v16) = _
  after_results
  rfl

set_option maxHeartbeats 1600000 in
/-- The down weights the region finds are the reference's. -/
theorem down_eq (c : Dev nD) :
    V m c main_v24 = Cert.ReferenceIdeal.Read.val_main_v23 (F := Ideal) (m ((c : Thread nD τ).loc main_arg1)) (m ((c : Thread nD τ).loc main_arg4)) := by
  show StableHlo.after hostOps0 (fun b => m (c, b)) (Proc.devRef .tc main_v24) = _
  after_results
  rfl

/-- The input rows the region finds: the input with its two leading axes flattened. -/
theorem rows_eq (c : Dev nD) :
    (V m c main_v26 : Vec Ideal S8192x4096 .bf16)
      = truncf (F := Ideal) .bf16 (shapeCast S8192x4096 (m ((c : Thread nD τ).loc main_arg0)) shapeCasts_S4x2048x4096_S8192x4096 : FVec Ideal S8192x4096 .f32) bitsLt_bf16_f32 := by
  show StableHlo.after hostOps0 (fun b => m (c, b)) (Proc.devRef .tc main_v26) = _
  after_results
  rfl

/-- Row `2048 · b + s` of the flattened input is row (b, s) of the input. -/
theorem rows_at (c : Dev nD) (b : Fin 4) (s : Fin 2048) (k : Fin 4096) :
    (V m c main_v26 : Vec Ideal S8192x4096 .bf16) (ix2 ⟨b.val * 2048 + s.val, by omega⟩ k)
      = m ((c : Thread nD τ).loc main_arg0) (ix3 b s k) := by
  rw [rows_eq]
  show shapeCast S8192x4096 (m ((c : Thread nD τ).loc main_arg0)) shapeCasts_S4x2048x4096_S8192x4096 (ix2 ⟨b.val * 2048 + s.val, by omega⟩ k) = _
  exact shapeCast_apply _ shapeCasts_S4x2048x4096_S8192x4096 _ (ix3 b s k)
    (by rewrite [Shape.rowMajor_val_three, Shape.rowMajor_val_two]; show (b.val * 2048 + s.val) * 4096 + k.val = (b.val * 2048 + s.val) * 4096 + k.val; rfl)

end Cert.KernelIdeal.Weights

end
-- ==== Proof.Layer.lean ====
/-
  The whole result: the gated feed-forward layer applied to every row of a [4, 2048, 4096] input.

  Entry (b, s, h) of the result is output column `h` of the layer applied to row (b, s) of the input.
-/
import proofs.«112168_j44899588112791_1_alg».proof.Proof.MlpSpec

noncomputable section

namespace Cert.Mlp

open Idealize.ShloMosaic Idealize.ShloMosaic.ValueIdx

/-- The shape of the input and of the result. -/
abbrev SX : Shape := ⟨3, ![4, 2048, 4096]⟩

/-- The layer applied row by row. -/
def layer (x : SX.Idx → EReal) (Wg Wu : SW.Idx → EReal) (Wd : SD.Idx → EReal) : SX.Idx → EReal :=
  fun i => mlpRow (fun k => x (ix3 (i 0) (i 1) k)) Wg Wu Wd (i 2)

end Cert.Mlp

end
-- ==== Proof.KernelValue.lean ====
/-
  The kernel program's result as one function of its arguments.

  The last point of each row block (tile 85) writes the output block back: by then entry (p, q) holds all 86 tiles'
  contribution, which is output column `q` of the layer applied to that row. The 16 row blocks tile the
  [8192, 4096] output array, so the array ends holding the layer applied to every row of the flattened input; the
  program's last line unflattens the rows, and row `2048 · b + s` of the flattened input is row (b, s) of the input.
-/
import proofs.«112168_j44899588112791_1_alg».proof.Proof.Gen.KernelIdeal.Frame
import proofs.«112168_j44899588112791_1_alg».proof.Proof.Accumulate
import proofs.«112168_j44899588112791_1_alg».proof.Proof.Weights
import proofs.«112168_j44899588112791_1_alg».proof.Proof.Layer
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Accum Cert.KernelIdeal.Weights

variable (m : (ℓ : Loc nD τ sig) → Buf (Elt Ideal) ℓ) (ρ : Dev nD → PrngReg)

/-- What the region's output array ends holding: row `r`, column `q` is output column `q` of the layer applied to
    row `r` of the flattened input. -/
def region (c : Dev nD) : Vec Ideal S8192x4096 .f32 :=
  fun i => mlpRow (fun k => xarr m c (ix2 (i 0) k)) (wgarr m c) (wuarr m c) (wdarr m c) (i 1)

/-- The block a row block's last point holds, entry by entry. -/
theorem last_at (c : Dev nD) (t : Fin cfg0.N) (h85 : t.val % 86 = 85) (y : S512x4096.Idx) :
    outsAt0 m c t.val t.isLt y = region m c (ix2 (rowOf (t.val / 86) (y 0)) (y 1)) := by
  obtain ⟨p, q, rfl⟩ : ∃ (p : Fin 512) (q : Fin 4096), y = ix2 p q := ⟨y 0, y 1, eq_ix2 y⟩
  rw [outsAt_at m c t.val t.isLt p q, h85]
  exact acc_full (xrow m c (t.val / 86) p) (wgarr m c) (wuarr m c) (wdarr m c) q

/-- What a row block's last point writes back is its block of `region`. -/
theorem flushed_eq (c : Dev nD) (t : Fin cfg0.N) (hf : (cfg0.win 4).flush t = true) :
    (dats m 0 c).flushed 4 t = ((cfg0.win 4).blk t).view.read (Elt Ideal) (region m c) := by
  have h85 : t.val % 86 = 85 := (flush0_4 t).mp hf
  obtain ⟨-, -, -, -, -, -, -, -, e0, e1⟩ := idx_facts t
  have hN := lt_N t
  show (cfg0.win 4).cut (grid0.coords t) ((dats m 0 c).after 4 t) = _
  rw [after0_4]
  funext y
  show outsAt0 m c t.val t.isLt y = region m c (((cfg0.win 4).blk t).view.emb y)
  rw [last_at m c t h85 y]
  refine congrArg (region m c) (funext fun a => Fin.ext ?_)
  match a with
  | ⟨0, _⟩ => show (t.val / 86) % 16 * 512 + (y 0).val = win0_4.index t (0 : Fin 2) * 512 + 1 * (y 0).val; rw [e0]; omega
  | ⟨1, _⟩ => show (y 1).val = win0_4.index t (1 : Fin 2) * 4096 + 1 * (y 1).val; rw [e1]; omega

/-- An index of the output array is in point `t`'s block iff each coordinate is in the block's range. -/
theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v27).slice (win0_4.rect t)).set ↔ _
  rw [View.set_slice_whole, Rect.mem_set_unit]
  exact Iff.rfl

/-- Every row of the output array is in the block some row block's last point writes back. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hlt : (i 0).val / 512 * 86 + 85 < cfg0.N := by rw [show cfg0.N = 1376 from N_0]; omega
  refine ⟨⟨(i 0).val / 512 * 86 + 85, hlt⟩, (flush0_4 _).mpr (by show ((i 0).val / 512 * 86 + 85) % 86 = 85; omega), ?_⟩
  rw [mem_blk]
  obtain ⟨-, -, -, -, -, -, -, -, e0, e1⟩ := idx_facts ⟨(i 0).val / 512 * 86 + 85, hlt⟩
  intro a
  match a with
  | ⟨0, _⟩ =>
    show win0_4.index ⟨(i 0).val / 512 * 86 + 85, hlt⟩ (0 : Fin 2) * 512 ≤ (i 0).val ∧ (i 0).val < win0_4.index ⟨(i 0).val / 512 * 86 + 85, hlt⟩ (0 : Fin 2) * 512 + 512
    rw [e0]
    show ((i 0).val / 512 * 86 + 85) / 86 * 512 ≤ (i 0).val ∧ (i 0).val < ((i 0).val / 512 * 86 + 85) / 86 * 512 + 512
    omega
  | ⟨1, _⟩ =>
    show win0_4.index ⟨(i 0).val / 512 * 86 + 85, hlt⟩ (1 : Fin 2) * 4096 ≤ (i 1).val ∧ (i 1).val < win0_4.index ⟨(i 0).val / 512 * 86 + 85, hlt⟩ (1 : Fin 2) * 4096 + 4096
    rw [e1]
    omega

/-- The region's output array after the run. -/
theorem final (c : Dev nD) : (dats m 0 c).arrAt 4 cfg0.N = region m c :=
  (dats m 0 c).arrAt_eq_of_cover 4 (region m c) (fun t hf => flushed_eq m c t hf) cover

/-- The program's result: the output array with its rows unflattened. -/
theorem tail_eq (c : Dev nD) :
    Pipeline.afterTail₀ cfgs (dats m) 0 (V0 m) [hostOps1] c main_v28
      = shapeCast S4x2048x4096 (region m c) shapeCasts_S8192x4096_S4x2048x4096 := by
  unfold Pipeline.afterTail₀
  show StableHlo.after hostOps1 _ (Proc.devRef .tc main_v28) = _
  after_results
  have hA : Pipeline.withArrays (cfgs 0).spec c (V0 m c) (fun w => (dats m 0 c).arrAt w (cfgs 0).N) (Proc.devRef .tc main_v27)
      = region m c :=
    (Pipeline.withArrays_arr spec0 launch0.win.arr_inj c (V0 m c) (fun w => (dats m 0 c).arrAt w cfg0.N) 4).trans (final m c)
  rw [hA]
  rfl

/-- The result is the layer applied to every row of the input, with the reference's three weight matrices. -/
theorem result_eq (c : Dev nD) :
    shapeCast S4x2048x4096 (region m c) shapeCasts_S8192x4096_S4x2048x4096
      = layer (m ((c : Thread nD τ).loc main_arg0))
          (Cert.ReferenceIdeal.Read.val_main_v7 (F := Ideal) (m ((c : Thread nD τ).loc main_arg1)) (m ((c : Thread nD τ).loc main_arg2)))
          (Cert.ReferenceIdeal.Read.val_main_v15 (F := Ideal) (m ((c : Thread nD τ).loc main_arg1)) (m ((c : Thread nD τ).loc main_arg3)))
          (Cert.ReferenceIdeal.Read.val_main_v23 (F := Ideal) (m ((c : Thread nD τ).loc main_arg1)) (m ((c : Thread nD τ).loc main_arg4))) := by
  funext i
  have h0 : (i 0).val < 4 := (i 0).isLt
  have h1 : (i 1).val < 2048 := (i 1).isLt
  rw [shapeCast_apply (region m c) shapeCasts_S8192x4096_S4x2048x4096 i (ix2 ⟨(i 0).val * 2048 + (i 1).val, by omega⟩ (i 2))
    (by rewrite [Shape.rowMajor_val_two, Shape.rowMajor_val_three]; rfl)]
  have e0 : (fun k : Fin 4096 => xarr m c (ix2 ⟨(i 0).val * 2048 + (i 1).val, by omega⟩ k))
      = fun k => m ((c : Thread nD τ).loc main_arg0) (ix3 (i 0) (i 1) k) := funext fun k => rows_at m c (i 0) (i 1) k
  unfold layer
  show mlpRow (fun k : Fin 4096 => xarr m c (ix2 ⟨(i 0).val * 2048 + (i 1).val, by omega⟩ k)) (V m c main_v8) (V m c main_v16) (V m c main_v24) (i 2) = _
  rw [e0, gate_eq m c, up_eq m c, down_eq m c]

/-- The kernel program's run: its result at the layer of its arguments, the arguments unchanged. -/
theorem run : θ_run defs (onTc (τ := τ) (main (F := Ideal))) ⟨m, fun _ => 0, ρ⟩ fun r => ∀ c : Dev nD,
      r.2.mem ((c : Thread nD τ).loc main_v28)
        = layer (m ((c : Thread nD τ).loc main_arg0))
            (Cert.ReferenceIdeal.Read.val_main_v7 (F := Ideal) (m ((c : Thread nD τ).loc main_arg1)) (m ((c : Thread nD τ).loc main_arg2)))
            (Cert.ReferenceIdeal.Read.val_main_v15 (F := Ideal) (m ((c : Thread nD τ).loc main_arg1)) (m ((c : Thread nD τ).loc main_arg3)))
            (Cert.ReferenceIdeal.Read.val_main_v23 (F := Ideal) (m ((c : Thread nD τ).loc main_arg1)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(((h c).2 main_v28 (Pipeline.mem_restRefs_of main_v28 (by decide) (by decide))).trans (tail_eq m c)).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference program's result is the layer applied row by row.

  The reference forms the gate and up projections of every input row by two matrix products, applies
  `g · (1 / (1 + e^(-g))) · u` entry by entry, and contracts the 11008 hidden units against the down weights in one
  matrix product. Over the extended reals `1 / (1 + e^(-g))` is the logistic function by definition, and each matrix
  product is the plain sum over its contracted axis.
-/
import proofs.«112168_j44899588112791_1_alg».proof.Proof.Gen.ReferenceIdeal.Read
import proofs.«112168_j44899588112791_1_alg».proof.Proof.Layer

noncomputable section

namespace Cert.ReferenceIdeal.RefValue

open Cert.ReferenceIdeal Cert.ReferenceIdeal.Gen Cert.ReferenceIdeal.Read Idealize.ShloMosaic Idealize.ShloMosaic.ValueIdx Cert.Mlp

/-- The float pattern of one denotes the real number one. -/
theorem one_f32 : Ideal.ofBits .f32 0x3F800000#32 = 1 := by
  simp [Ideal.ofBits, Ideal.ieee, -EReal.coe_mul]; norm_num

/-- The reference's spelling of the gated activation, `g · (1 / (1 + e^(-g))) · u`, is `g · σ(g) · u`. -/
theorem silu_eq (g u : EReal) :
    FloatOps.mulf (F := Ideal) (φ := .f32)
        (FloatOps.mulf (F := Ideal) (φ := .f32) g
          (FloatOps.hostDivf (F := Ideal) (φ := .f32) (FloatOps.ofBits (F := Ideal) .f32 0x3F800000#32)
            (FloatOps.addf (F := Ideal) (φ := .f32) (FloatOps.ofBits (F := Ideal) .f32 0x3F800000#32)
              (FloatOps.hostUnary (F := Ideal) (φ := .f32) .exp (FloatOps.hostNegf (F := Ideal) (φ := .f32) g))))) u
      = swiglu g u := by
  unfold swiglu Ideal.logistic
  simp only [Ideal.mulf_def, Ideal.hostDivf_def, Ideal.addf_def, Ideal.hostUnary_exp_def, Ideal.hostNegf_def, Ideal.negf_def,
    Ideal.ofBits_def, one_f32]

/-- Hidden unit `k` of row (b, s), as the reference computes it. -/
theorem hid_ref (x0 : (⟨S4x2048x4096, .f32⟩ : BufTy).Contents (Elt Ideal)) (x1 : (⟨S65536x8, .f32⟩ : BufTy).Contents (Elt Ideal))
    (x2 x3 : (⟨S11008x512, .i32⟩ : BufTy).Contents (Elt Ideal)) (i : S4x2048x4096.Idx) (k : Fin 11008) :
    val_main_v27 (F := Ideal) x0 x1 x2 x3 (lidx_main_v28 i k)
      = hid (fun k' => x0 (ix3 (i 0) (i 1) k')) (val_main_v7 (F := Ideal) x1 x2) (val_main_v15 (F := Ideal) x1 x3) k := by
  have el : ∀ k', lidx_main_v24 (lidx_main_v28 i k) k' = ix3 (i 0) (i 1) k' := fun k' => funext fun a => by
    match a with
    | ⟨0, _⟩ => rfl
    | ⟨1, _⟩ => rfl
    | ⟨2, _⟩ => rfl
  have er : ∀ k', ridx_main_v24 (lidx_main_v28 i k) k' = ix2 k k' := fun k' => funext fun a => by
    match a with
    | ⟨0, _⟩ => rfl
    | ⟨1, _⟩ => rfl
  have el' : ∀ k', lidx_main_v25 (lidx_main_v28 i k) k' = ix3 (i 0) (i 1) k' := fun k' => funext fun a => by
    match a with
    | ⟨0, _⟩ => rfl
    | ⟨1, _⟩ => rfl
    | ⟨2, _⟩ => rfl
  have er' : ∀ k', ridx_main_v25 (lidx_main_v28 i k) k' = ix2 k k' := fun k' => funext fun a => by
    match a with
    | ⟨0, _⟩ => rfl
    | ⟨1, _⟩ => rfl
  rw [val_main_v27_apply, val_main_v26_apply, val_main_call0_v5_apply, val_main_call0_v4_apply, val_main_call0_cst_0_apply,
    val_main_call0_v3_apply, val_main_call0_v2_apply, val_main_call0_cst_apply, val_main_call0_v1_apply,
    val_main_call0_v0_apply, val_main_v24_apply, val_main_v25_apply]
  simp only [el, er, el', er']
  exact silu_eq _ _

/-- The reference's result is the layer applied to every row, with the reference's three weight matrices. -/
theorem result_eq (x0 : (⟨S4x2048x4096, .f32⟩ : BufTy).Contents (Elt Ideal)) (x1 : (⟨S65536x8, .f32⟩ : BufTy).Contents (Elt Ideal))
    (x2 x3 : (⟨S11008x512, .i32⟩ : BufTy).Contents (Elt Ideal)) (x4 : (⟨S4096x1376, .i32⟩ : BufTy).Contents (Elt Ideal)) :
    val_main_v28 (F := Ideal) x0 x1 x2 x3 x4
      = layer x0 (val_main_v7 (F := Ideal) x1 x2) (val_main_v15 (F := Ideal) x1 x3) (val_main_v23 (F := Ideal) x1 x4) := by
  funext i
  rw [val_main_v28_apply]
  unfold layer mlpRow term
  refine Finset.sum_congr rfl fun k _ => ?_
  have er : ridx_main_v28 i k = ix2 (i 2) k := funext fun a => by
    match a with
    | ⟨0, _⟩ => rfl
    | ⟨1, _⟩ => rfl
  rw [er, hid_ref]
  rfl

end Cert.ReferenceIdeal.RefValue

end
-- ==== Proof.lean ====
/-
  A gated feed-forward layer with codebook-quantized weights: the tiled kernel against its plain reference, over the
  extended reals.

  Both programs look their three weight matrices up in one codebook by the same index arrays, form the gate and up
  projections `g`, `u` of every input row, and contract `g · σ(g) · u` (σ the logistic function) against the down
  weights. The kernel walks a 16 × 86 grid: for each block of 512 rows it adds, tile by tile of 128 hidden units,
  that tile's share of the contraction into the output block, starting from zero at tile 0 and writing the block back
  after tile 85; its matrix products run on lower-precision copies of the operands, and over the extended reals a
  change of float format is the identity. The reference computes three whole matrix products and spells the logistic
  function `1 / (1 + e^(-g))`, which over the extended reals is its definition. So both results are, entry by entry,
  `∑ᵢ (gᵢ · σ(gᵢ) · uᵢ) · Wd[h, i]` over the 11008 hidden units; the kernel's is that sum grouped into 86 tiles, and
  regrouping a sum uses only that addition of extended reals is commutative and associative — the inputs'
  finiteness is not used.

  The frames of the two kernel programs and the run of the reference are the generated ones; the modules under
  Proof/ read the kernel's frame run as values (Pieces, Accumulate, KernelValue), state the layer (MlpSpec, Layer),
  and read the reference's run (RefValue).
-/
import proofs.«112168_j44899588112791_1_alg».proof.Defs
import proofs.«112168_j44899588112791_1_alg».proof.Proof.Gen.Kernel
import proofs.«112168_j44899588112791_1_alg».proof.Proof.Gen.Kernel.Skeleton
import proofs.«112168_j44899588112791_1_alg».proof.Proof.Gen.Kernel.Launch
import proofs.«112168_j44899588112791_1_alg».proof.Proof.Gen.Kernel.Points
import proofs.«112168_j44899588112791_1_alg».proof.Proof.Gen.Kernel.Frame
import proofs.«112168_j44899588112791_1_alg».proof.Proof.Gen.KernelIdeal
import proofs.«112168_j44899588112791_1_alg».proof.Proof.Gen.KernelIdeal.Skeleton
import proofs.«112168_j44899588112791_1_alg».proof.Proof.Gen.KernelIdeal.Launch
import proofs.«112168_j44899588112791_1_alg».proof.Proof.Gen.KernelIdeal.Points
import proofs.«112168_j44899588112791_1_alg».proof.Proof.Gen.KernelIdeal.Frame
import proofs.«112168_j44899588112791_1_alg».proof.Proof.Gen.ReferenceIdeal
import proofs.«112168_j44899588112791_1_alg».proof.Proof.Gen.Pre_finite_inputs
import proofs.«112168_j44899588112791_1_alg».proof.Proof.Gen.ReferenceIdeal.Run
import proofs.«112168_j44899588112791_1_alg».proof.Proof.Gen.ReferenceIdeal.Read
import proofs.«112168_j44899588112791_1_alg».proof.Proof.KernelValue
import proofs.«112168_j44899588112791_1_alg».proof.Proof.RefValue
import Idealize.ShloMosaic.Adequacy
import Idealize.ShloMosaic.Init

noncomputable section

namespace Cert.Proof

open Idealize.ShloMosaic Idealize.SL.Sem Cert.Kernel

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end at the layer applied to every row of the input, with the weight
    matrices the reference looks up in the codebook. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
